-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S8192x1024 .f32) (main_arg2 : FVec F S1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S8192x1024 : Shape := ⟨2, ![8192, 1024]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S1x1024x1 : Shape := ⟨3, ![1, 1024, 1]⟩
abbrev S1x1x1024 : Shape := ⟨3, ![1, 1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024x1024, .f32⟩
  | .local _ .vmem, ⟨7, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  inb_S1024x1024_S1024x1024_0_0 : ∀ a, (![0, 0] : Fin 2 → Nat) a + S1024x1024.size a ≤ S1024x1024.size a
  h_S1024x1024 : 0 < S1024x1024.numel
  shapeCasts_S1024x1024_S1x1024x1024 : S1024x1024.ShapeCasts S1x1024x1024
  reduces_S1x1024x1024_S1x1024 : S1x1024x1024.Reduces [2] S1x1024
  shapeCasts_S1x1024_S1x1024x1 : S1x1024.ShapeCasts S1x1024x1
  broadcasts_S1x1024x1_S1x1024x1024 : S1x1024x1.Broadcasts S1x1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S1x1024x1024 : S1x1x1024.Broadcasts S1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x8192x1024.size a
  hwx0_0 : ∀ i : grid0.Coords, EltTy.bits .f32 = 32 ∨ (Rect.block (s := S4x8192x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x8192x1024.size a
  hwx0_4 : ∀ i : grid0.Coords, EltTy.bits .f32 = 32 ∨ (Rect.block (s := S4x8192x1024) S1x1024x1024.size (cc0_transform_4 i) (hinb0_4 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S1024 : Shape := ⟨1, ![1024]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192, .i32⟩
  | .hbm, ⟨5, _⟩ => ⟨S1x8192, .i32⟩
  | .hbm, ⟨6, _⟩ => ⟨S4x8192, .i32⟩
  | .hbm, ⟨7, _⟩ => ⟨S_, .i32⟩
  | .hbm, ⟨8, _⟩ => ⟨S4x8192, .i32⟩
  | .hbm, ⟨9, _⟩ => ⟨S4x8192, .i1⟩
  | .hbm, ⟨10, _⟩ => ⟨S_, .i32⟩
  | .hbm, ⟨11, _⟩ => ⟨S4x8192, .i32⟩
  | .hbm, ⟨12, _⟩ => ⟨S4x8192, .i32⟩
  | .hbm, ⟨13, _⟩ => ⟨S4x8192, .i32⟩
  | .hbm, ⟨14, _⟩ => ⟨S4x8192x1, .i32⟩
  | .hbm, ⟨15, _⟩ => ⟨S1, .i32⟩
  | .hbm, ⟨16, _⟩ => ⟨S_, .i32⟩
  | .hbm, ⟨17, _⟩ => ⟨S4x8192x1, .i32⟩
  | .hbm, ⟨18, _⟩ => ⟨S4x8192x1, .i1⟩
  | .hbm, ⟨19, _⟩ => ⟨S1x1x1, .i32⟩
  | .hbm, ⟨20, _⟩ => ⟨S4x8192x1, .i32⟩
  | .hbm, ⟨21, _⟩ => ⟨S4x8192x1, .i1⟩
  | .hbm, ⟨22, _⟩ => ⟨S4x8192x1, .i1⟩
  | .hbm, ⟨23, _⟩ => ⟨S_, .i1⟩
  | .hbm, ⟨24, _⟩ => ⟨S4x8192, .i1⟩
  | .hbm, ⟨25, _⟩ => ⟨S4x8192x1024, .f32⟩
  | .hbm, ⟨26, _⟩ => ⟨S4x8192x1024, .i1⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x1024, .f32⟩
  | .hbm, ⟨53, _⟩ => ⟨S4x8192x1024, .f32⟩
  | .hbm, ⟨54, _⟩ => ⟨S1x1x1024, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x1024_0_1 : S4x8192.BroadcastsInDim S4x8192x1024 (![0, 1] : Fin 2 → Fin S4x8192x1024.rank)
  bcast_S_S4x8192x1024 : S_.BroadcastsInDim S4x8192x1024 (![] : Fin 0 → Fin S4x8192x1024.rank)
  reducesTo_S4x8192x1024_S4x8192_d2 : S4x8192x1024.ReducesTo [2] S4x8192
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  gather_S8192x1024_S4x8192x1_S4x8192x1024_2_0_n_n_0_2_11024_wf : GatherDims.WF S8192x1024 S4x8192x1 S4x8192x1024 [2] [0] [] [0] [] 2 ![1, 1024]

variable [Facts₀]

def gather_S8192x1024_S4x8192x1_S4x8192x1024_2_0_n_n_0_2_11024 : GatherDims S8192x1024 S4x8192x1 S4x8192x1024 where
  offsetDims := [2]
  collapsedSliceDims := [0]
  operandBatchingDims := []
  startIndicesBatchingDims := []
  startIndexMap := [0]
  indexVectorDim := 2
  sliceSizes := ![1, 1024]
  wf := gather_S8192x1024_S4x8192x1_S4x8192x1024_2_0_n_n_0_2_11024_wf

class Facts : Prop extends Facts₀ where

variable [Facts]
-- ==== Proof.Spec.lean ====
/-
  Layer normalisation of a position-embedded sequence, as one function of the four argument arrays, entry by entry,
  over the extended reals.

  For batch b, position s and feature k:  e(b,s,k) = x(b,s,k) + p(s,k);  the row mean  μ(b,s) = (Σ_k e(b,s,k)) / 1024;
  the centred entry  c(b,s,k) = e(b,s,k) − μ(b,s);  the row variance  σ²(b,s) = (Σ_k c(b,s,k)²) / 1024;  and the result
      out(b,s,k) = c(b,s,k) · (σ²(b,s) + ε)^(-1/2) · w(k) + β(k).
  The scaling by the inverse root is written in two ways, as a product with the reciprocal square root and as a quotient
  by the square root. On the extended reals the two agree whenever the argument v = σ² + ε is positive: for a positive
  real v the reciprocal root is the inverse of the root, and at v = +∞ the product is with 0 and the quotient is by +∞,
  both 0. And v is always positive: a square is never negative, so neither is a sum of squares nor its quotient by 1024,
  and ε is a positive real. No finiteness of the entries is used.
-/
import Idealize.ShloMosaic.PureOps.Ideal
import Idealize.ShloMosaic.Lib.ValueIdx

noncomputable section

open scoped BigOperators

namespace Cert.LN

open Idealize.ShloMosaic Idealize.ShloMosaic.ValueIdx

/-- The shapes of the input, of the position table and of the weight and bias. -/
abbrev Sx : Shape := ⟨3, ![4, 8192, 1024]⟩
abbrev Sp : Shape := ⟨2, ![8192, 1024]⟩
abbrev Sw : Shape := ⟨1, ![1024]⟩

/-- The row length 1024 and the stabiliser ε, as the float words both programs spell. -/
def n1024 : EReal := Ideal.ofBits .f32 0x44800000#32
def eps : EReal := Ideal.ofBits .f32 0x2B8CBCCC#32

/-- The word of +0.0 denotes 0. -/
theorem ofBits_zero : Ideal.ofBits .f32 0x00000000#32 = 0 := by
  simp [Ideal.ofBits, Ideal.ieee]

/-- The word of 1024.0 denotes the real 1024. -/
theorem n1024_eq : n1024 = ((1024 : ℝ) : EReal) := by
  unfold n1024
  simp [Ideal.ofBits, Ideal.ieee, -EReal.coe_mul]; norm_num

/-- ε is a positive real. -/
theorem eps_pos : 0 < eps := by
  unfold eps
  simp [Ideal.ofBits, Ideal.ieee, -EReal.coe_mul]

section
variable (x : Sx.Idx → EReal) (p : Sp.Idx → EReal)

/-- The embedded entry: input plus position row. -/
def emb (b : Fin 4) (s : Fin 8192) (k : Fin 1024) : EReal := x (ix3 b s k) + p (ix2 s k)

/-- The row mean. -/
def mean (b : Fin 4) (s : Fin 8192) : EReal := Ideal.div (∑ k : Fin 1024, emb x p b s k) n1024

/-- The centred entry. -/
def ctr (b : Fin 4) (s : Fin 8192) (k : Fin 1024) : EReal := emb x p b s k - mean x p b s

/-- The row variance. -/
def var (b : Fin 4) (s : Fin 8192) : EReal := Ideal.div (∑ k : Fin 1024, ctr x p b s k * ctr x p b s k) n1024

variable (w β : Sw.Idx → EReal)

/-- The result with the inverse root as a product with the reciprocal square root. -/
def outMul (b : Fin 4) (s : Fin 8192) (k : Fin 1024) : EReal :=
  ctr x p b s k * Ideal.rsqrt (var x p b s + eps) * w (ix1 k) + β (ix1 k)

/-- The result with the inverse root as a quotient by the square root. -/
def outDiv (b : Fin 4) (s : Fin 8192) (k : Fin 1024) : EReal :=
  Ideal.div (ctr x p b s k) (Ideal.sqrt (var x p b s + eps)) * w (ix1 k) + β (ix1 k)

/-- The whole result array. -/
def out : Sx.Idx → EReal := fun i => outMul x p w β (i 0) (i 1) (i 2)

end

/-- A square of an extended real is not negative. -/
theorem mul_self_nonneg' (a : EReal) : 0 ≤ a * a := by
  induction a using EReal.rec with
  | bot => simp [EReal.bot_mul_bot]
  | top => simp [EReal.top_mul_top]
  | coe r => exact_mod_cast mul_self_nonneg r

/-- A quotient of a non-negative extended real by 1024 is not negative. -/
theorem div_n1024_nonneg (a : EReal) (ha : 0 ≤ a) : 0 ≤ Ideal.div a n1024 := by
  rw [n1024_eq, Ideal.div_coe (by norm_num : (1024 : ℝ) ≠ 0)]
  exact mul_nonneg ha (by exact_mod_cast (by norm_num : (0 : ℝ) ≤ 1 / 1024))

/-- The argument of the inverse root is positive. -/
theorem var_eps_pos (x : Sx.Idx → EReal) (p : Sp.Idx → EReal) (b : Fin 4) (s : Fin 8192) : 0 < var x p b s + eps := by
  have h : 0 ≤ var x p b s :=
    div_n1024_nonneg _ (Finset.sum_nonneg fun k _ => mul_self_nonneg' _)
  exact eps_pos.trans_le (le_add_of_nonneg_left h)

/-- For a positive extended real v, the product with the reciprocal square root of v is the quotient by its square root. -/
theorem mul_rsqrt_eq_div_sqrt (a v : EReal) (hv : 0 < v) : a * Ideal.rsqrt v = Ideal.div a (Ideal.sqrt v) := by
  induction v using EReal.rec with
  | bot => exact absurd hv not_lt_bot
  | top =>
    rw [Ideal.rsqrt_top, Ideal.sqrt_top, Ideal.div, if_neg EReal.top_ne_zero, EReal.inv_top]
  | coe r =>
    have hr : 0 < r := by exact_mod_cast hv
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div_coe hs, one_div]

/-- The two ways of writing the result agree. -/
theorem outDiv_eq_outMul (x : Sx.Idx → EReal) (p : Sp.Idx → EReal) (w β : Sw.Idx → EReal) (b : Fin 4) (s : Fin 8192)
    (k : Fin 1024) : outDiv x p w β b s k = outMul x p w β b s k := by
  unfold outDiv outMul
  rw [mul_rsqrt_eq_div_sqrt _ _ (var_eps_pos x p b s)]

end Cert.LN

end
-- ==== Proof.Row.lean ====
/-
  The normalisation of ONE row, as a function of the row's 1024 embedded entries alone: the mean is the row's sum over
  1024, the variance the sum of the squared distances from the mean over 1024, and entry k of the result is the centred
  entry times the reciprocal square root of variance plus ε, times a weight, plus a bias. The whole-array result at
  (b, s, k) is this row function of the row e(b, s, ·).
-/
import proofs.«115072_g44092134261159_cont_8to1c4_605_5_alg».proof.Proof.Spec

noncomputable section

open scoped BigOperators

namespace Cert.LN

open Idealize.ShloMosaic Idealize.ShloMosaic.ValueIdx

/-- A row's mean. -/
def rowMean (e : Fin 1024 → EReal) : EReal := Ideal.div (∑ j : Fin 1024, e j) n1024

/-- A row's variance. -/
def rowVar (e : Fin 1024 → EReal) : EReal :=
  Ideal.div (∑ j : Fin 1024, (e j - rowMean e) * (e j - rowMean e)) n1024

/-- Entry k of the normalised, scaled and shifted row. -/
def rowOut (e : Fin 1024 → EReal) (wk βk : EReal) (k : Fin 1024) : EReal :=
  (e k - rowMean e) * Ideal.rsqrt (rowVar e + eps) * wk + βk

/-- The array's entry (b, s, k) is the row function of row (b, s) of the embedding. -/
theorem outMul_eq_rowOut (x : Sx.Idx → EReal) (p : Sp.Idx → EReal) (w β : Sw.Idx → EReal) (b : Fin 4) (s : Fin 8192)
    (k : Fin 1024) : outMul x p w β b s k = rowOut (fun j => emb x p b s j) (w (ix1 k)) (β (ix1 k)) k := rfl

end Cert.LN

end
-- ==== Proof.KernelBlock.lean ====
/-
  What one grid step leaves in its output block, entry by entry. The step holds one batch's block of 1024 sequence rows
  (P0, of shape [1, 1024, 1024]), the matching 1024 rows of the position table (P1, [1024, 1024]) and the weight and bias as
  single rows (P2, P3, [1, 1024]). Entry (0, r, k) of the block it writes is the row normalisation of the embedded row
  j ↦ P0(0, r, j) + P1(r, j), scaled by P2(0, k) and shifted by P3(0, k): the two lane sums the body takes along the last
  axis are that row's sum and the sum of its squared centred entries, and every other operation acts entry by entry.
-/
import proofs.«115072_g44092134261159_cont_8to1c4_605_5_alg».proof.Proof.Gen.KernelIdeal.Value
import proofs.«115072_g44092134261159_cont_8to1c4_605_5_alg».proof.Proof.Row
import Idealize.ShloMosaic.PureOps.Ideal.Laws
import Idealize.ShloMosaic.Lib.ValueIdx
import Idealize.ShloMosaic.Lib.Pipeline.Value

noncomputable section

open scoped BigOperators

namespace Cert.KernelIdeal.Block

open Cert.KernelIdeal Cert.KernelIdeal.Gen Cert.KernelIdeal.Value Idealize.ShloMosaic Idealize.ShloMosaic.ValueIdx

variable (P0 : Vec Ideal S1x1024x1024 .f32) (P1 : Vec Ideal S1024x1024 .f32)

/-- The block's embedded entries: the input block plus the position rows laid over it. -/
abbrev embBlk : FVec Ideal S1x1024x1024 .f32 :=
  addf P0 (shapeCast S1x1024x1024 P1 shapeCasts_S1024x1024_S1x1024x1024)

/-- Entry (0, r, k) of the embedded block. -/
theorem embBlk_apply (r k : Fin 1024) : embBlk P0 P1 (ix3 0 r k) = P0 (ix3 0 r k) + P1 (ix2 r k) := by
  show P0 (ix3 0 r k) + shapeCast S1x1024x1024 P1 shapeCasts_S1024x1024_S1x1024x1024 (ix3 0 r k) = _
  congr 1
  exact shapeCast_apply _ _ (ix3 0 r k) (ix2 r k) (by
    rw [Shape.rowMajor_val_two, Shape.rowMajor_val_three]
    show r.val * 1024 + k.val = ((0 : ℕ) * 1024 + r.val) * 1024 + k.val
    omega)

/-- The index a lane sum over the last axis reads at row r and lane j. -/
theorem lift_row (r j : Fin 1024) :
    reduces_S1x1024x1024_S1x1024.lift (ix2 (0 : Fin 1) r) j = ix3 (0 : Fin 1) r j := by
  funext a
  apply Fin.ext
  match a with
  | ⟨0, _⟩ => rfl
  | ⟨1, _⟩ => rfl
  | ⟨2, _⟩ => rfl

/-- The first lane sum at row r is the embedded row's sum. -/
theorem sumEmb (r : Fin 1024) :
    multiReduction .add [2] S1x1024 (embBlk P0 P1) 0x00000000#32 reduces_S1x1024x1024_S1x1024 (.inl rfl) rfl (ix2 0 r)
      = ∑ j : Fin 1024, (P0 (ix3 0 r j) + P1 (ix2 r j)) := by
  refine (Ideal.multiReduction_add_single (embBlk P0 P1) 0x00000000#32 reduces_S1x1024x1024_S1x1024 (.inl rfl) rfl
    (ix2 0 r)).trans ?_
  refine Finset.sum_congr rfl fun j _ => ?_
  exact (congrArg (embBlk P0 P1) (lift_row r j)).trans (embBlk_apply P0 P1 r j)

/-- The block's row means, one per row, laid along the lanes. -/
abbrev meanBlk : FVec Ideal S1x1024x1024 .f32 :=
  broadcastTo S1x1024x1024
    (divf (shapeCast S1x1024x1 (multiReduction .add [2] S1x1024 (embBlk P0 P1) 0x00000000#32 reduces_S1x1024x1024_S1x1024 (.inl rfl) rfl) shapeCasts_S1x1024_S1x1024x1)
      (broadcast S1x1024x1 (Scalar.ofBits .f32 0x44800000#32)))
    broadcasts_S1x1024x1_S1x1024x1024

/-- The block's centred entries. -/
abbrev ctrBlk : FVec Ideal S1x1024x1024 .f32 := subf (embBlk P0 P1) (meanBlk P0 P1)

/-- A column entry (0, r, 0) sits at the same place in row-major order as the row entry (0, r). -/
theorem col_row_major (r : Fin 1024) :
    (S1x1024.rowMajor (ix2 (0 : Fin 1) r)).val = (S1x1024x1.rowMajor (ix3 (0 : Fin 1) r (0 : Fin 1))).val := by
  rw [Shape.rowMajor_val_two, Shape.rowMajor_val_three]
  show (0 : ℕ) * 1024 + r.val = ((0 : ℕ) * 1024 + r.val) * 1 + 0
  omega

/-- A column laid along the lanes reads, at (0, r, k), the column's entry (0, r, 0). -/
theorem lanes_apply (col : FVec Ideal S1x1024x1 .f32) (r k : Fin 1024) :
    broadcastTo S1x1024x1024 col broadcasts_S1x1024x1_S1x1024x1024 (ix3 0 r k) = col (ix3 0 r 0) :=
  broadcastTo_apply _ _ (ix3 (0 : Fin 1) r k) (ix3 (0 : Fin 1) r (0 : Fin 1)) (fun a => match a with
    | ⟨0, _⟩ => by show 0 = (if (1 : Nat) = 1 then 0 else 0); rw [if_pos rfl]
    | ⟨1, _⟩ => by show r.val = (if (1024 : Nat) = 1 then 0 else r.val); rw [if_neg (by decide)]
    | ⟨2, _⟩ => by show 0 = (if (1 : Nat) = 1 then 0 else k.val); rw [if_pos rfl])

/-- Entry (0, r, k) of the mean block is the mean of embedded row r. -/
theorem meanBlk_apply (r k : Fin 1024) :
    meanBlk P0 P1 (ix3 0 r k) = Cert.LN.rowMean (fun j => P0 (ix3 0 r j) + P1 (ix2 r j)) := by
  refine (lanes_apply _ r k).trans ?_
  have e1 : shapeCast S1x1024x1 (multiReduction .add [2] S1x1024 (embBlk P0 P1) 0x00000000#32 reduces_S1x1024x1024_S1x1024 (.inl rfl) rfl) shapeCasts_S1x1024_S1x1024x1 (ix3 0 r 0)
      = ∑ j : Fin 1024, (P0 (ix3 0 r j) + P1 (ix2 r j)) :=
    (shapeCast_apply _ _ (ix3 (0 : Fin 1) r (0 : Fin 1)) (ix2 (0 : Fin 1) r) (col_row_major r)).trans (sumEmb P0 P1 r)
  exact congrArg (fun z => Ideal.div z Cert.LN.n1024) e1

/-- Entry (0, r, k) of the centred block. -/
theorem ctrBlk_apply (r k : Fin 1024) :
    ctrBlk P0 P1 (ix3 0 r k)
      = (P0 (ix3 0 r k) + P1 (ix2 r k)) - Cert.LN.rowMean (fun j => P0 (ix3 0 r j) + P1 (ix2 r j)) := by
  show embBlk P0 P1 (ix3 0 r k) - meanBlk P0 P1 (ix3 0 r k) = _
  rw [embBlk_apply, meanBlk_apply]

/-- The second lane sum at row r is the sum of the row's squared centred entries. -/
theorem sumSq (r : Fin 1024) :
    multiReduction .add [2] S1x1024 (mulf (ctrBlk P0 P1) (ctrBlk P0 P1)) 0x00000000#32 reduces_S1x1024x1024_S1x1024 (.inl rfl) rfl (ix2 0 r)
      = ∑ j : Fin 1024, ((P0 (ix3 0 r j) + P1 (ix2 r j)) - Cert.LN.rowMean (fun j => P0 (ix3 0 r j) + P1 (ix2 r j)))
          * ((P0 (ix3 0 r j) + P1 (ix2 r j)) - Cert.LN.rowMean (fun j => P0 (ix3 0 r j) + P1 (ix2 r j))) := by
  refine (Ideal.multiReduction_add_single (mulf (ctrBlk P0 P1) (ctrBlk P0 P1)) 0x00000000#32 reduces_S1x1024x1024_S1x1024
    (.inl rfl) rfl (ix2 0 r)).trans ?_
  refine Finset.sum_congr rfl fun (j : Fin 1024) _ => ?_
  refine (congrArg (mulf (ctrBlk P0 P1) (ctrBlk P0 P1)) (lift_row r j)).trans ?_
  show ctrBlk P0 P1 (ix3 0 r j) * ctrBlk P0 P1 (ix3 0 r j) = _
  rw [ctrBlk_apply]

variable (P2 P3 : Vec Ideal S1x1024 .f32)

/-- ENTRY (0, r, k) OF THE BLOCK A STEP WRITES is the row normalisation of embedded row r at lane k, with the weight and
    bias read at lane k. -/
theorem E4_apply (r k : Fin 1024) :
    E4 (F := Ideal) P0 P1 P2 P3 (ix3 0 r k)
      = Cert.LN.rowOut (fun j => P0 (ix3 0 r j) + P1 (ix2 r j)) (P2 (ix2 0 k)) (P3 (ix2 0 k)) k := by
  have i0 : ix4_0 (ix3 (0 : Fin 1) r k) = ix3 0 r k := by
    funext a; apply Fin.ext; match a with | ⟨0, _⟩ => rfl | ⟨1, _⟩ => rfl | ⟨2, _⟩ => rfl
  have i1 : ix4_1 (ix3 (0 : Fin 1) r k) = ix2 r k := by
    funext a; apply Fin.ext; match a with | ⟨0, _⟩ => rfl | ⟨1, _⟩ => rfl
  have i2 : ix4_2 (ix3 (0 : Fin 1) r k) = ix2 0 r := by
    funext a; apply Fin.ext; match a with | ⟨0, _⟩ => rfl | ⟨1, _⟩ => rfl
  have i3 : ix4_3 (ix3 (0 : Fin 1) r k) = ix2 0 r := by
    funext a; apply Fin.ext; match a with | ⟨0, _⟩ => rfl | ⟨1, _⟩ => rfl
  have i4 : ix4_4 (ix3 (0 : Fin 1) r k) = ix2 0 k := by
    funext a; apply Fin.ext; match a with | ⟨0, _⟩ => rfl | ⟨1, _⟩ => rfl
  have i5 : ix4_5 (ix3 (0 : Fin 1) r k) = ix2 0 k := by
    funext a; apply Fin.ext; match a with | ⟨0, _⟩ => rfl | ⟨1, _⟩ => rfl
  show ((P0 (ix4_0 (ix3 0 r k)) + P1 (ix4_1 (ix3 0 r k)))
        - Ideal.div (multiReduction .add [2] S1x1024 (embBlk P0 P1) 0x00000000#32 reduces_S1x1024x1024_S1x1024 (.inl rfl) rfl (ix4_2 (ix3 0 r k))) Cert.LN.n1024)
      * Ideal.rsqrt (Ideal.div (multiReduction .add [2] S1x1024 (mulf (ctrBlk P0 P1) (ctrBlk P0 P1)) 0x00000000#32 reduces_S1x1024x1024_S1x1024 (.inl rfl) rfl (ix4_3 (ix3 0 r k))) Cert.LN.n1024 + Cert.LN.eps)
      * P2 (ix4_4 (ix3 0 r k)) + P3 (ix4_5 (ix3 0 r k)) = _
  rw [i0, i1, i2, i3, i4, i5, sumEmb, sumSq]
  rfl

end Cert.KernelIdeal.Block

end
-- ==== Proof.KernelValue.lean ====
/-
  The kernel's whole result array. The grid has 8 × 4 steps: step (j, i) holds batch i's block of sequence rows
  1024·j … 1024·j + 1023, the position rows of the same range, and the weight and bias rows; it writes the output block at
  the same place as its input block. Entry (0, r, k) of what it writes is the row normalisation of the embedded row, so
  the block is the block of the whole-array layer normalisation at batch i, sequence row 1024·j + r, feature k; the 32
  blocks tile the [4, 8192, 1024] array, so after the run the array IS that function of the four arguments.
  The weight and bias reach the kernel as [1, 1024] arrays holding the arguments' 1024 entries in order.
-/
import proofs.«115072_g44092134261159_cont_8to1c4_605_5_alg».proof.Proof.KernelBlock
import Idealize.ShloMosaic.Lib.StableHlo.Run

noncomputable section

open scoped BigOperators

namespace Cert.KernelIdeal.KValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- What a step leaves in its output buffer is the block function of its four input blocks. -/
theorem out0_4_eq (x0 : Vec Ideal S1x1024x1024 .f32) (x1 : Vec Ideal S1024x1024 .f32) (x2 x3 : Vec Ideal S1x1024 .f32) :
    out0_4 x0 x1 x2 x3 = E4 x0 x1 x2 x3 := by
  unfold out0_4
  simp only [View.ld_unit_zero (S := S1x1024x1024) hz3, View.ld_unit_zero (S := S1024x1024) hz2,
    View.ld_unit_zero (S := S1x1024) hz2]
  funext y
  exact canon4_eq x0 x1 x2 x3 y

/-- A [1, 1024] row array made from a 1024-vector holds, at (0, k), the vector's entry k. -/
theorem row_of_vec (v : FVec Ideal S1024 .f32) (k : Fin 1024) :
    shapeCast S1x1024 v shapeCasts_S1024_S1x1024 (ix2 0 k) = v (ix1 k) :=
  shapeCast_apply _ _ (ix2 (0 : Fin 1) k) (ix1 k) (by
    rw [Shape.rowMajor_val_two, Shape.rowMajor_val_one]
    show k.val = (0 : ℕ) * 1024 + k.val
    omega)

/-- The weight row as the region finds it. -/
theorem V_weight (c : Dev nD) (k : Fin 1024) :
    (V m c main_v0 : S1x1024.Idx → EReal) (ix2 0 k) = (m ((c : Thread nD τ).loc main_arg2) : S1024.Idx → EReal) (ix1 k) := by
  have e : (V m c main_v0 : S1x1024.Idx → EReal)
      = shapeCast S1x1024 (m ((c : Thread nD τ).loc main_arg2) : S1024.Idx → EReal) shapeCasts_S1024_S1x1024 := by
    dsimp only [Gen.V, Gen.hostOps0]; after_results; rfl
  rw [e]; exact row_of_vec _ k

/-- The bias row as the region finds it. -/
theorem V_bias (c : Dev nD) (k : Fin 1024) :
    (V m c main_v1 : S1x1024.Idx → EReal) (ix2 0 k) = (m ((c : Thread nD τ).loc main_arg3) : S1024.Idx → EReal) (ix1 k) := by
  have e : (V m c main_v1 : S1x1024.Idx → EReal)
      = shapeCast S1x1024 (m ((c : Thread nD τ).loc main_arg3) : S1024.Idx → EReal) shapeCasts_S1024_S1x1024 := by
    dsimp only [Gen.V, Gen.hostOps0]; after_results; rfl
  rw [e]; exact row_of_vec _ k

/-- The whole-array function the kernel computes, of the four arguments as launched. -/
abbrev G (c : Dev nD) : S4x8192x1024.Idx → EReal :=
  Cert.LN.out (m ((c : Thread nD τ).loc main_arg0)) (m ((c : Thread nD τ).loc main_arg1))
    (m ((c : Thread nD τ).loc main_arg2)) (m ((c : Thread nD τ).loc main_arg3))

/-- The printed index maps over the 32 grid points: the input block and the output block sit at the same place, the
    position block at the output's sequence block, the weight and bias blocks at the origin; and the output's block
    indices stay in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = win0_4.index t (1 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 4 ∧ win0_4.index t (1 : Fin 3) < 8 :=
  (by decide +kernel : ∀ t : Fin grid0.N, _)

/-- Every (batch, sequence block) pair is some grid point's output block. -/
theorem idx_onto : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-- The row function at an array index whose feature coordinate is k. -/
theorem rowOut_eq_out (x : Cert.LN.Sx.Idx → EReal) (p : Cert.LN.Sp.Idx → EReal) (w β : Cert.LN.Sw.Idx → EReal)
    (i : S4x8192x1024.Idx) (k : Fin 1024) (hk : (i 2).val = k.val) (e : Fin 1024 → EReal)
    (he : ∀ j : Fin 1024, e j = x (ix3 (i 0) (i 1) j) + p (ix2 (i 1) j)) (wk βk : EReal)
    (hw : wk = w (ix1 k)) (hβ : βk = β (ix1 k)) : Cert.LN.rowOut e wk βk k = Cert.LN.out x p w β i := by
  have hik : (i 2 : Fin 1024) = k := Fin.ext hk
  have hee : e = fun j => Cert.LN.emb x p (i 0) (i 1) j := funext he
  subst hik hw hβ hee
  exact (Cert.LN.outMul_eq_rowOut x p w β (i 0) (i 1) (i 2)).symm

/-- WHAT POINT t WRITES BACK is block t of the whole-array function. -/
theorem flushed4_eq (c : Dev nD) (t : Fin cfg0.N) :
    (dats m 0 c).flushed 4 t = ((cfg0.win 4).blk t).view.read (Elt Ideal) (G m c) := by
  rw [flushed4, out0_4_eq]
  obtain ⟨e0, e1, e2, e3, e4, e5, e6, e7, e8, e9, e10, e11⟩ := idx_facts t
  funext y
  have hy0 : (y 0).val < 1 := (y 0).isLt
  have hy : y = ix3 (0 : Fin 1) (y 1) (y 2) := by
    funext a; apply Fin.ext
    match a with
    | ⟨0, _⟩ => show (y 0).val = 0; omega
    | ⟨1, _⟩ => rfl
    | ⟨2, _⟩ => rfl
  generalize (y 1 : Fin 1024) = r at hy
  generalize (y 2 : Fin 1024) = k at hy
  subst hy
  show E4 (iblk m c 0 t) (iblk m c 1 t) (iblk m c 2 t) (iblk m c 3 t) (ix3 0 r k)
    = G m c (((cfg0.win 4).blk t).view.emb (ix3 0 r k))
  refine (Cert.KernelIdeal.Block.E4_apply (iblk m c 0 t) (iblk m c 1 t) (iblk m c 2 t) (iblk m c 3 t) r k).trans ?_
  have hr : r.val < 1024 := r.isLt
  have hkk : k.val < 1024 := k.isLt
  refine rowOut_eq_out _ _ _ _ (((cfg0.win 4).blk t).view.emb (ix3 0 r k)) k ?_ _ (fun j => ?_) _ _ ?_ ?_
  · show win0_4.index t (2 : Fin 3) * 1024 + 1 * k.val = k.val
    omega
  · have hj : j.val < 1024 := j.isLt
    congr 1
    · show V m c main_arg0 (((cfg0.win 0).blk t).view.emb (ix3 0 r j)) = m ((c : Thread nD τ).loc main_arg0) _
      rw [V_main_arg0]
      refine congrArg _ (funext fun a => Fin.ext ?_)
      match a with
      | ⟨0, _⟩ => show win0_0.index t (0 : Fin 3) * 1 + 1 * 0 = win0_4.index t (0 : Fin 3) * 1 + 1 * 0; omega
      | ⟨1, _⟩ => show win0_0.index t (1 : Fin 3) * 1024 + 1 * r.val = win0_4.index t (1 : Fin 3) * 1024 + 1 * r.val; omega
      | ⟨2, _⟩ => show win0_0.index t (2 : Fin 3) * 1024 + 1 * j.val = j.val; omega
    · show V m c main_arg1 (((cfg0.win 1).blk t).view.emb (ix2 r j)) = m ((c : Thread nD τ).loc main_arg1) _
      rw [V_main_arg1]
      refine congrArg _ (funext fun a => Fin.ext ?_)
      match a with
      | ⟨0, _⟩ => show win0_1.index t (0 : Fin 2) * 1024 + 1 * r.val = win0_4.index t (1 : Fin 3) * 1024 + 1 * r.val; omega
      | ⟨1, _⟩ => show win0_1.index t (1 : Fin 2) * 1024 + 1 * j.val = j.val; omega
  · show V m c main_v0 (((cfg0.win 2).blk t).view.emb (ix2 0 k)) = _
    refine Eq.trans (congrArg _ (funext fun a => Fin.ext ?_)) (V_weight m c k)
    match a with
    | ⟨0, _⟩ => show win0_2.index t (0 : Fin 2) * 1 + 1 * 0 = 0; omega
    | ⟨1, _⟩ => show win0_2.index t (1 : Fin 2) * 1024 + 1 * k.val = k.val; omega
  · show V m c main_v1 (((cfg0.win 3).blk t).view.emb (ix2 0 k)) = _
    refine Eq.trans (congrArg _ (funext fun a => Fin.ext ?_)) (V_bias m c k)
    match a with
    | ⟨0, _⟩ => show win0_3.index t (0 : Fin 2) * 1 + 1 * 0 = 0; omega
    | ⟨1, _⟩ => show win0_3.index t (1 : Fin 2) * 1024 + 1 * k.val = k.val; omega

/-- An index of the array is in point t's block iff each coordinate is in the block's range on its axis. -/
theorem mem_blk4 (t : Fin cfg0.N) (i : S4x8192x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v2).slice (win0_4.rect t)).set ↔ _
  rw [View.set_slice_whole, Rect.mem_set_unit]
  exact Iff.rfl

/-- Every index of the array lies in some grid point's output block. -/
theorem cover4 (i : S4x8192x1024.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 1024 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- THE ARRAY after the run is the layer normalisation of the arguments. -/
theorem final4 (c : Dev nD) : (dats m 0 c).arrAt 4 cfg0.N = G m c :=
  (dats m 0 c).arrAt_eq_of_cover 4 (G m c) (fun t _ => flushed4_eq m c t) cover4

/-- The kernel's run: the result array at the layer normalisation of the arguments, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (run_blocks m ρ)

end Cert.KernelIdeal.KValue

end
-- ==== Proof.RefTerm.lean ====
/-
  The reference program's result as one term of its four argument arrays, built stage by stage in the order the
  program computes it, at any float instance.

  The position ids are the words 0 … 8191 along the sequence axis, the same for every batch. The table lookup wraps a
  negative word by the table's length, gathers one table row per word, and keeps the gathered row where the wrapped word
  lies in 0 … 8191 (elsewhere it would fill with a not-a-number word). The embedding is the input plus the looked-up rows;
  a row's sum from +0.0, divided by 1024, gives the mean and, on the squared centred entries, the variance; the centred
  entry is divided by the square root of variance plus ε, multiplied by the weight and added to the bias, both laid along
  the feature axis.
-/
import proofs.«115072_g44092134261159_cont_8to1c4_605_5_alg».proof.Proof.Gen.ReferenceIdeal

noncomputable section

namespace Cert.ReferenceIdeal.Term

open Cert.ReferenceIdeal Cert.ReferenceIdeal.Gen Idealize.ShloMosaic

variable {F : FTy → Type} [FloatOps F]

/-- The position ids: entry (b, s) is the word s. -/
def posIds : IVec S4x8192 32 :=
  broadcastInDim S4x8192 ![0, 1] bcast_S1x8192_S4x8192_0_1
    (broadcastInDim S1x8192 ![1] bcast_S8192_S1x8192_1 (iotaInDim S8192 32 0))

/-- The lookup's wrapped ids: a negative word moved up by the table's length. -/
def wrapIds (ids : IVec S4x8192 32) : IVec S4x8192 32 :=
  select (cmpi .slt ids (broadcastInDim S4x8192 ![] bcast_S_S4x8192 (constantI S_ 32 0#32)))
    (addi ids (broadcastInDim S4x8192 ![] bcast_S_S4x8192 (constantI S_ 32 8192#32))) ids

/-- The wrapped ids as a column of start words. -/
def startIds (ids : IVec S4x8192 32) : IVec S4x8192x1 32 :=
  broadcastInDim S4x8192x1 ![0, 1] bcast_S4x8192_S4x8192x1_0_1 (wrapIds ids)

/-- Whether each wrapped id lies in 0 … 8191. -/
def inRange (ids : IVec S4x8192 32) : IVec S4x8192 1 :=
  Host.reduce IntOp.andi
    (andi (cmpi .sge (startIds ids) (broadcastInDim S4x8192x1 ![] bcast_S_S4x8192x1 (constantI S_ 32 0#32)))
      (cmpi .sle (startIds ids) (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- The table lookup: the gathered rows where the id is in range, the fill word elsewhere. -/
def take (tbl : FVec F S8192x1024 .f32) (ids : IVec S4x8192 32) : FVec F S4x8192x1024 .f32 :=
  select (broadcastInDim S4x8192x1024 ![0, 1] bcast_S4x8192_S4x8192x1024_0_1 (inRange ids))
    (Host.gather gather_S8192x1024_S4x8192x1_S4x8192x1024_2_0_n_n_0_2_11024 tbl (startIds ids))
    (broadcastInDim S4x8192x1024 ![] bcast_S_S4x8192x1024 (constant S_ .f32 0x7FC00000#32))

/-- The embedding: input plus looked-up position rows. -/
def embd (x0 : FVec F S4x8192x1024 .f32) (x1 : FVec F S8192x1024 .f32) : FVec F S4x8192x1024 .f32 :=
  addf x0 (take x1 posIds)

/-- A row's sum from +0.0. -/
def rowSum (v : FVec F S4x8192x1024 .f32) : FVec F S4x8192 .f32 :=
  Host.reduceAdd v (constant S_ .f32 0x00000000#32) reducesTo_S4x8192x1024_S4x8192_d2 h_S_

/-- A per-row value as a column, divided by 1024. -/
def perRow (v : FVec F S4x8192 .f32) : FVec F S4x8192x1 .f32 :=
  Host.divf (broadcastInDim S4x8192x1 ![0, 1] bcast_S4x8192_S4x8192x1_0_1 v)
    (broadcastInDim S4x8192x1 ![] bcast_S_S4x8192x1 (constant S_ .f32 0x44800000#32))

/-- A column laid along the feature axis. -/
def spread (c : FVec F S4x8192x1 .f32) : FVec F S4x8192x1024 .f32 :=
  broadcastInDim S4x8192x1024 ![0, 1, 2] bcast_S4x8192x1_S4x8192x1024_0_1_2 c

/-- The centred embedding. -/
def centred (e : FVec F S4x8192x1024 .f32) : FVec F S4x8192x1024 .f32 :=
  subf e (spread (perRow (rowSum e)))

/-- The square root of variance plus ε, as a column. -/
def rootCol (e : FVec F S4x8192x1024 .f32) : FVec F S4x8192x1 .f32 :=
  Host.sqrt (addf (perRow (rowSum (mulf (centred e) (centred e))))
    (broadcastInDim S4x8192x1 ![] bcast_S_S4x8192x1 (constant S_ .f32 0x2B8CBCCC#32)))

/-- A feature vector laid along batch and sequence. -/
def featRow (v : FVec F S1024 .f32) : FVec F S4x8192x1024 .f32 :=
  broadcastInDim S4x8192x1024 ![0, 1, 2] bcast_S1x1x1024_S4x8192x1024_0_1_2
    (broadcastInDim S1x1x1024 ![2] bcast_S1024_S1x1x1024_2 v)

/-- The reference's result. -/
def refTerm (x0 : FVec F S4x8192x1024 .f32) (x1 : FVec F S8192x1024 .f32) (x2 x3 : FVec F S1024 .f32) :
    FVec F S4x8192x1024 .f32 :=
  addf (mulf (Host.divf (centred (embd x0 x1)) (spread (rootCol (embd x0 x1)))) (featRow x2)) (featRow x3)

end Cert.ReferenceIdeal.Term

end
-- ==== Proof.RefRun.lean ====
/-
  The reference program's run.

  The program is a straight line of 56 operations: three build the position ids; 23 are the table lookup (the 22 of
  the lookup function and, where it calls the wrap function, that function's one select, each at the call's own
  buffers); 30 are the layer normalisation. Listed in order, the program IS the sequence of that list. No buffer of
  the signature is scoped, so a straight-line sequence terminates on every weakly fair execution with each buffer at
  the fold of the operations' results over the launch contents. Read at the result buffer the fold is the staged
  term of the four argument arrays (the same operations in the same order, so the two agree by computation); read
  at an argument buffer, which no operation writes, it is the launch contents.
-/
import proofs.«115072_g44092134261159_cont_8to1c4_605_5_alg».proof.Proof.Gen.ReferenceIdeal
import proofs.«115072_g44092134261159_cont_8to1c4_605_5_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 56 operations, in order: the position ids (3), the lookup at its call's buffers (6, the wrap's
    select, 16), the normalisation (30). -/
abbrev ops : List (HloOp τ sig (Elt F)) :=
  [ -- the position ids
    nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    -- the lookup of the table (argument 1) at the position ids: wrap a negative id by the table's length
    TRef.nullary main_call0.c (constantI S_ 32 0#32),
    TRef.unary main_call0.c main_call0.v0 (broadcastInDim S4x8192 ![] bcast_S_S4x8192),
    TRef.binary (.of main_v2 : TRef sig ⟨S4x8192, .i32⟩) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2 : TRef sig ⟨S4x8192, .i32⟩) main_call0.v2 main_call0.v3 addi,
    TRef.ternary main_call0.v1 main_call0.v3 (.of main_v2 : TRef sig ⟨S4x8192, .i32⟩) main_call0.call0.v0 select,
    -- the wrapped ids as start words, and whether each lies in 0 … 8191
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    -- the gathered rows, kept where the id is in range, the fill word elsewhere
    TRef.binary (.of main_arg1 : TRef sig ⟨S8192x1024, .f32⟩) main_call0.v5 main_call0.v13 (fun x i => Host.gather gather_S8192x1024_S4x8192x1_S4x8192x1024_2_0_n_n_0_2_11024 x i),
    TRef.unary main_call0.v12 main_call0.v14 (broadcastInDim S4x8192x1024 ![0, 1] bcast_S4x8192_S4x8192x1024_0_1),
    TRef.nullary main_call0.cst (constant S_ .f32 0x7FC00000#32),
    TRef.unary main_call0.cst main_call0.v15 (broadcastInDim S4x8192x1024 ![] bcast_S_S4x8192x1024),
    TRef.ternary main_call0.v14 main_call0.v13 main_call0.v15 main_call0.v16 select,
    -- the embedding, its row mean, the centred entries and their row variance
    binary main_arg0 main_v3 main_v4 (addf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v4 main_cst main_v5 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v5 main_v6 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v9 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v4 main_v9 main_v10 (subf : (⟨S4x8192x1024, .f32⟩ : BufTy).Contents (Elt F) → (⟨S4x8192x1024, .f32⟩ : BufTy).Contents (Elt F) → (⟨S4x8192x1024, .f32⟩ : BufTy).Contents (Elt F)),
    binary main_v10 main_v10 main_v11 (mulf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x00000000#32),
    binary main_v11 main_cst_1 main_v12 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v12 main_v13 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44800000#32),
    unary main_cst_2 main_v14 (broadcastInDim S4x8192x1 ![] bcast_S_S4x8192x1 : (⟨S_, .f32⟩ : BufTy).Contents (Elt F) → (⟨S4x8192x1, .f32⟩ : BufTy).Contents (Elt F)),
    binary main_v13 main_v14 main_v15 (Host.divf : (⟨S4x8192x1, .f32⟩ : BufTy).Contents (Elt F) → (⟨S4x8192x1, .f32⟩ : BufTy).Contents (Elt F) → (⟨S4x8192x1, .f32⟩ : BufTy).Contents (Elt F)),
    -- the centred entries again, over the square root of variance plus ε
    unary main_v8 main_v16 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v4 main_v16 main_v17 (subf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x2B8CBCCC#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v15 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.sqrt : (⟨S4x8192x1, .f32⟩ : BufTy).Contents (Elt F) → (⟨S4x8192x1, .f32⟩ : BufTy).Contents (Elt F)),
    unary main_v20 main_v21 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v17 main_v21 main_v22 (Host.divf : (⟨S4x8192x1024, .f32⟩ : BufTy).Contents (Elt F) → (⟨S4x8192x1024, .f32⟩ : BufTy).Contents (Elt F) → (⟨S4x8192x1024, .f32⟩ : BufTy).Contents (Elt F)),
    -- times the weight, plus the bias, both laid along the feature axis
    unary main_arg2 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v22 main_v24 main_v25 (mulf : (⟨S4x8192x1024, .f32⟩ : BufTy).Contents (Elt F) → (⟨S4x8192x1024, .f32⟩ : BufTy).Contents (Elt F) → (⟨S4x8192x1024, .f32⟩ : BufTy).Contents (Elt F)),
    unary main_arg3 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v25 main_v27 main_v28 (addf : (⟨S4x8192x1024, .f32⟩ : BufTy).Contents (Elt F) → (⟨S4x8192x1024, .f32⟩ : BufTy).Contents (Elt F) → (⟨S4x8192x1024, .f32⟩ : BufTy).Contents (Elt F)) ]

-- fifty-six binds re-associated: the rewrite under the chain recurses once per statement
set_option maxRecDepth 2048 in
/-- The program is that straight line: the two functions' bodies unfolded at their calls, both sides are one chain
    of steps once sequencing is re-associated. -/
theorem main_eq (c : Dev nD) : main (F := F) c = seq ops := by
  simp only [main, fn_take.body, fn_where.body, seq, bind_assoc, pure_bind]

/-- No buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., unary_bufs_sub ..,
    nullary_bufs_sub .., unary_bufs_sub .., binary_bufs_sub .., nullary_bufs_sub .., unary_bufs_sub .., binary_bufs_sub ..,
    ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub ..,
    unary_bufs_sub .., unary_bufs_sub .., binary_bufs_sub .., unary_bufs_sub .., unary_bufs_sub .., binary_bufs_sub ..⟩

attribute [local irreducible] Host.reduce Host.reduceAdd Host.gather in
set_option maxRecDepth 8192 in
set_option maxHeartbeats 400000 in
/-- The fold read at the result buffer is the staged term: unrolled, each operation's result decides whether the
    buffer read is the one it writes, and the typed references' transports are the identity at these literal
    references, so the fold computes to the operations composed in the program's order, which is how the staged
    term is built. The reductions and the gather stay folded: the equation never looks inside them. -/
theorem out_eq (V : Valuation τ sig (Elt F)) :
    after ops V (main_v28 : DevRef τ sig)
      = Cert.ReferenceIdeal.Term.refTerm (V (main_arg0 : DevRef τ sig)) (V (main_arg1 : DevRef τ sig))
          (V (main_arg2 : DevRef τ sig)) (V (main_arg3 : DevRef τ sig)) := by
  after_results_simp
  rfl

/-- On every device, for any float values, from any memory with zero counters: every weakly fair execution of the
    program terminates with the result buffer at the staged term of the four argument arrays' launch contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = Cert.ReferenceIdeal.Term.refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq (launchContents m c)),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.RefIds.lean ====
/-
  The reference's integer stages read at one index.

  The position id at (b, s) is the 32-bit word s. For s below 8192 that word is not negative as a signed integer, so the
  lookup's wrap (which adds the table's length to a negative word) keeps it, and the column of start words holds it at
  (b, s, 0). The range test is the and-reduction, over the column's unit axis, of (0 ≤ word) ∧ (word ≤ 8191); both signed
  comparisons hold for the word s, so the test is the bit 1.
-/
import proofs.«115072_g44092134261159_cont_8to1c4_605_5_alg».proof.Proof.RefTerm
import Idealize.ShloMosaic.Lib.ValueIdx
import Idealize.ShloMosaic.Lib.Pipeline.Value
import Idealize.ShloMosaic.PureOps.Reduce
import Idealize.ShloMosaic.Lib.StableHlo.Predicate

noncomputable section

open scoped BigOperators

namespace Cert.ReferenceIdeal.RefValue

open Cert.ReferenceIdeal Cert.ReferenceIdeal.Gen Cert.ReferenceIdeal.Term Idealize.ShloMosaic Idealize.ShloMosaic.ValueIdx

open Idealize.ShloMosaic.StableHlo.Predicate

/-- The position ids read at (b, s): the word s. -/
theorem posIds_apply (b : Fin 4) (s : Fin 8192) : posIds (ix2 b s) = BitVec.ofNat 32 s.val := rfl

/-- The word s, for s below 8192, has value s. -/
theorem toNat_word (s : Fin 8192) : (BitVec.ofNat 32 s.val).toNat = s.val := by
  have := s.isLt
  simp only [BitVec.toNat_ofNat]; omega

/-- A column read at (b, s, c) is the rectangle at (b, s). -/
theorem col_apply {α : Type} (v : S4x8192.Idx → α) (b : Fin 4) (s : Fin 8192) (c : Fin 1) :
    broadcastInDim S4x8192x1 ![0, 1] bcast_S4x8192_S4x8192x1_0_1 v (ix3 b s c) = v (ix2 b s) :=
  broadcastInDim_apply _ _ v _ _ (fun a => match a with | ⟨0, _⟩ => rfl | ⟨1, _⟩ => rfl)

/-- The wrapped ids read at (b, s), as the select on the sign of the word. -/
theorem wrapIds_apply (ids : IVec S4x8192 32) (b : Fin 4) (s : Fin 8192) :
    wrapIds ids (ix2 b s) = Scalar.select (IntOp.cmpi .slt (ids (ix2 b s)) 0#32) (IntOp.addi (ids (ix2 b s)) 8192#32) (ids (ix2 b s)) := rfl

/-- The word s is not negative, so the wrap keeps it. -/
theorem wrapIds_posIds (b : Fin 4) (s : Fin 8192) : wrapIds posIds (ix2 b s) = BitVec.ofNat 32 s.val := by
  rw [wrapIds_apply, posIds_apply]
  have hs := toNat_word s
  have hlt := s.isLt
  have h0 : IntOp.cmpi .slt (BitVec.ofNat 32 s.val) 0#32 = 0#1 :=
    eq_zero_of_ne_one fun h => by
      have := (slt_iff_toNat (by rw [hs]; omega) (by decide)).1 h
      simp at this
  rw [h0, select_zero]

/-- The start words read at (b, s, c). -/
theorem startIds_posIds (b : Fin 4) (s : Fin 8192) (c : Fin 1) : startIds posIds (ix3 b s c) = BitVec.ofNat 32 s.val :=
  (col_apply _ b s c).trans (wrapIds_posIds b s)

/-- A fold over the one coordinate of a unit axis is one application of the operation. -/
theorem fold_fin_one {α : Type} (op : α → α → α) [Std.Commutative op] [Std.Associative op] (i : α) (f : Fin 1 → α) :
    (Finset.univ : Finset (Fin 1)).fold op i f = op (f 0) i := by
  rw [show (Finset.univ : Finset (Fin 1)) = {0} from rfl, Finset.fold_singleton]

/-- The range test of the word s: both signed comparisons hold. -/
theorem inRange_posIds (b : Fin 4) (s : Fin 8192) : inRange posIds (ix2 b s) = 1#1 := by
  have hR : S4x8192x1.Reduces [2] S4x8192 := by decide
  have hs := toNat_word s
  have hlt := s.isLt
  unfold inRange
  refine (Host.reduce_eq_fold_single IntOp.andi _ _ reducesTo_S4x8192x1_S4x8192_d2 hR h_S_ (ix2 b s)).trans ?_
  refine (fold_fin_one IntOp.andi _ _).trans ?_
  have hl : hR.lift (ix2 b s) (0 : Fin 1) = ix3 b s (0 : Fin 1) := by
    funext a; refine Fin.ext ?_
    match a with
    | ⟨0, _⟩ => rfl
    | ⟨1, _⟩ => rfl
    | ⟨2, _⟩ => rfl
  have hge : IntOp.cmpi .sge (BitVec.ofNat 32 s.val) 0#32 = 1#1 :=
    (sge_iff_toNat (by rw [hs]; omega) (by decide)).2 (by simp)
  have hle : IntOp.cmpi .sle (BitVec.ofNat 32 s.val) 8191#32 = 1#1 :=
    (sle_iff_toNat (by rw [hs]; omega) (by decide)).2 (by rw [hs]; simp; omega)
  show IntOp.andi (IntOp.andi (IntOp.cmpi .sge (startIds posIds (hR.lift (ix2 b s) (0 : Fin 1))) 0#32)
    (IntOp.cmpi .sle (startIds posIds (hR.lift (ix2 b s) (0 : Fin 1))) 8191#32)) 1#1 = 1#1
  rw [hl, startIds_posIds, hge, hle]
  rfl

end Cert.ReferenceIdeal.RefValue

end
-- ==== Proof.RefGather.lean ====
/-
  The reference's table lookup read at one index.

  The gather takes whole rows of the [8192, 1024] table: operand axis 0 is collapsed and start-indexed, operand axis 1 is
  the result's offset axis 2, and the start indices are a [4, 8192, 1] column whose last axis is the index vector. So the
  result at (b, s, k) is the table at (row, k), the row being the start word at (b, s, 0) read as a signed integer and
  clamped into 0 … 8191 (the slice has one row, so the clamp's upper end is 8192 − 1).
-/
import proofs.«115072_g44092134261159_cont_8to1c4_605_5_alg».proof.Proof.RefTerm
import Idealize.ShloMosaic.Lib.ValueIdx

noncomputable section

open scoped BigOperators

namespace Cert.ReferenceIdeal.RefValue

open Cert.ReferenceIdeal Cert.ReferenceIdeal.Gen Cert.ReferenceIdeal.Term Idealize.ShloMosaic Idealize.ShloMosaic.ValueIdx

/-- The gather's dimension numbers, under a short name. -/
abbrev G := gather_S8192x1024_S4x8192x1_S4x8192x1024_2_0_n_n_0_2_11024

/-- The gathered table at (b, s, k): the table's row named by the start word at (b, s, 0), read signed and clamped into
    0 … 8191, at column k. -/
theorem gather_apply {α : Type} (tbl : S8192x1024.Idx → α) (idx : IVec S4x8192x1 32) (b : Fin 4) (s : Fin 8192) (k : Fin 1024) :
    Host.gather G tbl idx (ix3 b s k)
      = tbl (ix2 (⟨min (idx (ix3 b s (0 : Fin 1))).toInt.toNat 8191, by omega⟩ : Fin 8192) k) := by
  unfold Host.gather
  refine congrArg tbl (funext fun a => Fin.ext ?_)
  match a with
  | ⟨0, _⟩ =>
    show G.start (ix3 b s k) idx 0 + G.batchCoord (ix3 b s k) 0 + G.offCoord (ix3 b s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix3 b s k) ⟨List.idxOf (0 : Fin 2) G.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show G.start (ix3 b s k) idx 1 + G.batchCoord (ix3 b s k) 1 + G.offCoord (ix3 b s k) 1 = k.val
    rw [GatherDims.batchCoord_eq_zero _ _ _ List.not_mem_nil]
    unfold GatherDims.start
    rw [dif_neg (show (1 : Fin 2) ∉ G.startIndexMap from by decide)]
    simp only [Nat.add_zero, Nat.zero_add]
    rfl

end Cert.ReferenceIdeal.RefValue

end
-- ==== Proof.RefValue.lean ====
/-
  The reference's term read at one index, over the extended reals.

  Stage by stage at (b, s, k): the looked-up table is the table's row s (the id s is in range, so the gathered row is kept,
  and the gathered row is the one the word s names); the embedding is the input entry plus that row's entry; a row's sum
  from +0.0 is the sum over the row's 1024 entries; a per-row value divided by 1024 and laid along the feature axis gives
  the mean, and on the squared centred entries the variance; the weight and the bias are read at k. Put together, the
  reference's result is the centred entry divided by the square root of variance plus ε, times the weight, plus the bias:
  the specification's quotient form.
-/
import proofs.«115072_g44092134261159_cont_8to1c4_605_5_alg».proof.Proof.RefTerm
import proofs.«115072_g44092134261159_cont_8to1c4_605_5_alg».proof.Proof.Spec
import proofs.«115072_g44092134261159_cont_8to1c4_605_5_alg».proof.Proof.RefIds
import proofs.«115072_g44092134261159_cont_8to1c4_605_5_alg».proof.Proof.RefGather
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Cert.ReferenceIdeal.Term Idealize.ShloMosaic Idealize.ShloMosaic.ValueIdx

open Idealize.ShloMosaic.StableHlo.Predicate Cert.LN

/-! ## The lookup and the embedding -/

/-- A rectangle laid along the feature axis, read at (b, s, k), is the rectangle at (b, s). -/
theorem alongFeat_apply {α : Type} (v : S4x8192.Idx → α) (b : Fin 4) (s : Fin 8192) (k : Fin 1024) :
    broadcastInDim S4x8192x1024 ![0, 1] bcast_S4x8192_S4x8192x1024_0_1 v (ix3 b s k) = v (ix2 b s) :=
  broadcastInDim_apply _ _ v _ _ (fun a => match a with | ⟨0, _⟩ => rfl | ⟨1, _⟩ => rfl)

/-- The word s read signed and clamped into 0 … 8191 is s. -/
theorem row_word (s : Fin 8192) : min (BitVec.ofNat 32 s.val).toInt.toNat 8191 = s.val := by
  have hlt := s.isLt
  rw [toInt_ofNat_small s.val (by omega), Int.toNat_natCast]
  omega

/-- The looked-up table at (b, s, k) is the table's row s at column k: the id s is in range, so the gathered row is kept,
    and the gathered row is row s. -/
theorem take_apply {F : FTy → Type} [FloatOps F] (tbl : FVec F S8192x1024 .f32) (b : Fin 4) (s : Fin 8192) (k : Fin 1024) :
    take tbl posIds (ix3 b s k) = tbl (ix2 s k) := by
  unfold take
  rw [select_apply, alongFeat_apply, inRange_posIds, select_one]
  refine (gather_apply tbl (startIds posIds) b s k).trans (congrArg (fun r => tbl (ix2 r k)) (Fin.ext ?_))
  show min (startIds posIds (ix3 b s (0 : Fin 1))).toInt.toNat 8191 = s.val
  rw [startIds_posIds, row_word]

/-- The embedding at (b, s, k): the input entry plus the position row's entry. -/
theorem embd_apply (x0 : FVec Ideal S4x8192x1024 .f32) (x1 : FVec Ideal S8192x1024 .f32) (b : Fin 4) (s : Fin 8192) (k : Fin 1024) :
    embd x0 x1 (ix3 b s k) = emb x0 x1 b s k := by
  unfold embd emb
  rw [addf_apply, take_apply]

/-! ## The row statistics -/

/-- A row's sum from +0.0 is the sum of the row's entries. -/
theorem rowSum_apply (v : FVec Ideal S4x8192x1024 .f32) (b : Fin 4) (s : Fin 8192) :
    rowSum v (ix2 b s) = ∑ k : Fin 1024, v (ix3 b s k) := by
  have hR : S4x8192x1024.Reduces [2] S4x8192 := by decide
  refine (Ideal.hostReduceAdd_single reducesTo_S4x8192x1024_S4x8192_d2 hR v (Ideal.ofBits .f32 0x00000000#32) (ix2 b s)).trans ?_
  rw [ofBits_zero, zero_add]
  refine Finset.sum_congr rfl fun k _ => congrArg v ?_
  funext a; refine Fin.ext ?_
  match a with
  | ⟨0, _⟩ => rfl
  | ⟨1, _⟩ => rfl
  | ⟨2, _⟩ => rfl

/-- A per-row value as a column, divided by 1024. -/
theorem perRow_apply (v : FVec Ideal S4x8192 .f32) (b : Fin 4) (s : Fin 8192) (c : Fin 1) :
    perRow v (ix3 b s c) = Ideal.div (v (ix2 b s)) n1024 := by
  unfold perRow
  show Ideal.div (broadcastInDim S4x8192x1 ![0, 1] bcast_S4x8192_S4x8192x1_0_1 v (ix3 b s c)) n1024 = _
  rw [col_apply]

/-- A column laid along the feature axis, read at (b, s, k), is the column at (b, s, 0). -/
theorem spread_apply {α : Type} (c : S4x8192x1.Idx → α) (b : Fin 4) (s : Fin 8192) (k : Fin 1024) :
    broadcastInDim S4x8192x1024 ![0, 1, 2] bcast_S4x8192x1_S4x8192x1024_0_1_2 c (ix3 b s k) = c (ix3 b s (0 : Fin 1)) :=
  broadcastInDim_apply _ _ c _ _ (fun a => match a with | ⟨0, _⟩ => rfl | ⟨1, _⟩ => rfl | ⟨2, _⟩ => rfl)

/-- The centred entry: the entry minus the row's mean. -/
theorem centred_apply (e : FVec Ideal S4x8192x1024 .f32) (b : Fin 4) (s : Fin 8192) (k : Fin 1024) :
    centred e (ix3 b s k) = e (ix3 b s k) - Ideal.div (∑ k' : Fin 1024, e (ix3 b s k')) n1024 := by
  unfold centred spread
  rw [subf_apply, spread_apply, perRow_apply, rowSum_apply]

/-- The root column: the square root of the row's variance plus ε. -/
theorem rootCol_apply (e : FVec Ideal S4x8192x1024 .f32) (b : Fin 4) (s : Fin 8192) (c : Fin 1) :
    rootCol e (ix3 b s c)
      = Ideal.sqrt (Ideal.div (∑ k' : Fin 1024, centred e (ix3 b s k') * centred e (ix3 b s k')) n1024 + eps) := by
  unfold rootCol
  show Ideal.sqrt (perRow (rowSum (mulf (centred e) (centred e))) (ix3 b s c) + eps) = _
  rw [perRow_apply, rowSum_apply]
  rfl

/-- A feature vector laid along batch and sequence, read at (b, s, k), is the vector at k. -/
theorem featRow_apply {α : Type} (v : S1024.Idx → α) (b : Fin 4) (s : Fin 8192) (k : Fin 1024) :
    broadcastInDim S4x8192x1024 ![0, 1, 2] bcast_S1x1x1024_S4x8192x1024_0_1_2
      (broadcastInDim S1x1x1024 ![2] bcast_S1024_S1x1x1024_2 v) (ix3 b s k) = v (ix1 k) :=
  (broadcastInDim_apply _ _ _ _ (ix3 (0 : Fin 1) (0 : Fin 1) k)
      (fun a => match a with | ⟨0, _⟩ => rfl | ⟨1, _⟩ => rfl | ⟨2, _⟩ => rfl)).trans
    (broadcastInDim_apply _ _ v _ _ (fun a => match a with | ⟨0, _⟩ => rfl))

/-! ## The result -/

/-- The centred embedding is the specification's centred entry. -/
theorem centred_embd (x0 : FVec Ideal S4x8192x1024 .f32) (x1 : FVec Ideal S8192x1024 .f32) (b : Fin 4) (s : Fin 8192) (k : Fin 1024) :
    centred (embd x0 x1) (ix3 b s k) = ctr x0 x1 b s k := by
  rw [centred_apply, embd_apply]
  unfold ctr mean
  exact congrArg (fun t => emb x0 x1 b s k - Ideal.div t n1024) (Finset.sum_congr rfl fun k' _ => embd_apply x0 x1 b s k')

/-- The root column of the embedding is the square root of the specification's variance plus ε. -/
theorem rootCol_embd (x0 : FVec Ideal S4x8192x1024 .f32) (x1 : FVec Ideal S8192x1024 .f32) (b : Fin 4) (s : Fin 8192) (c : Fin 1) :
    rootCol (embd x0 x1) (ix3 b s c) = Ideal.sqrt (var x0 x1 b s + eps) := by
  rw [rootCol_apply]
  unfold var
  exact congrArg (fun t => Ideal.sqrt (Ideal.div t n1024 + eps))
    (Finset.sum_congr rfl fun k' _ => by rw [centred_embd])

/-- THE REFERENCE'S RESULT AT (b, s, k): the centred entry divided by the root of variance plus ε, times the weight, plus
    the bias. -/
theorem refTerm_apply (x0 : FVec Ideal S4x8192x1024 .f32) (x1 : FVec Ideal S8192x1024 .f32) (x2 x3 : FVec Ideal S1024 .f32)
    (b : Fin 4) (s : Fin 8192) (k : Fin 1024) :
    Cert.ReferenceIdeal.Term.refTerm (F := Ideal) x0 x1 x2 x3 (ValueIdx.ix3 b s k) = Cert.LN.outDiv x0 x1 x2 x3 b s k := by
  unfold refTerm outDiv featRow
  rw [addf_apply, mulf_apply, featRow_apply, featRow_apply]
  show Ideal.div (centred (embd x0 x1) (ix3 b s k)) (spread (rootCol (embd x0 x1)) (ix3 b s k)) * x2 (ix1 k) + x3 (ix1 k) = _
  unfold spread
  rw [spread_apply, centred_embd, rootCol_embd]

end Cert.ReferenceIdeal.RefValue

end
-- ==== Proof.lean ====
/-
  The certificate: a fused add-and-layer-normalisation kernel against its reference.

  Both programs compute, for the input x of shape [4, 8192, 1024], the position table p of shape [8192, 1024] and the weight
  w and bias β of length 1024: e = x + p (p's row s added at every batch), the mean and variance of each row of 1024
  features, and out = (e − mean) · (variance + ε)^(-1/2) · w + β. The kernel walks the sequence in blocks of 1024 rows and
  the batch one at a time, adds the matching slice of the table, and multiplies by the reciprocal square root; the
  reference looks the table rows up by the ids 0 … 8191 (all in range, so the lookup is the table itself) and divides by
  the square root. Over the extended reals the product with the reciprocal root and the quotient by the root agree
  because their argument, a mean of squares plus the positive ε, is positive (at +∞ both are 0); nothing else
  differs, and no finiteness of the inputs is needed for the equality.

  The kernel's frames are the generated ones; its result array is read off the generated blockwise value leg, block by
  block, as the whole-array function. The reference's run is written by hand as the list of its operations with the two
  outlined functions' operations in place, its result the staged term of the arguments, and that term is read at one
  index. The idealisation rewrote nothing, so the preservation claim is trivial.
-/
import proofs.«115072_g44092134261159_cont_8to1c4_605_5_alg».proof.Defs
import proofs.«115072_g44092134261159_cont_8to1c4_605_5_alg».proof.Proof.Gen.Kernel
import proofs.«115072_g44092134261159_cont_8to1c4_605_5_alg».proof.Proof.Gen.Kernel.Skeleton
import proofs.«115072_g44092134261159_cont_8to1c4_605_5_alg».proof.Proof.Gen.Kernel.Launch
import proofs.«115072_g44092134261159_cont_8to1c4_605_5_alg».proof.Proof.Gen.Kernel.Points
import proofs.«115072_g44092134261159_cont_8to1c4_605_5_alg».proof.Proof.Gen.Kernel.Frame
import proofs.«115072_g44092134261159_cont_8to1c4_605_5_alg».proof.Proof.Gen.KernelIdeal
import proofs.«115072_g44092134261159_cont_8to1c4_605_5_alg».proof.Proof.Gen.KernelIdeal.Skeleton
import proofs.«115072_g44092134261159_cont_8to1c4_605_5_alg».proof.Proof.Gen.KernelIdeal.Launch
import proofs.«115072_g44092134261159_cont_8to1c4_605_5_alg».proof.Proof.Gen.KernelIdeal.Points
import proofs.«115072_g44092134261159_cont_8to1c4_605_5_alg».proof.Proof.Gen.KernelIdeal.Frame
import proofs.«115072_g44092134261159_cont_8to1c4_605_5_alg».proof.Proof.Gen.KernelIdeal.Value
import proofs.«115072_g44092134261159_cont_8to1c4_605_5_alg».proof.Proof.Gen.ReferenceIdeal
import proofs.«115072_g44092134261159_cont_8to1c4_605_5_alg».proof.Proof.Gen.Pre_finite_inputs
import proofs.«115072_g44092134261159_cont_8to1c4_605_5_alg».proof.Proof.KernelValue
import proofs.«115072_g44092134261159_cont_8to1c4_605_5_alg».proof.Proof.RefRun
import proofs.«115072_g44092134261159_cont_8to1c4_605_5_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result term is the layer normalisation of its arguments: at each index its quotient form, which is
    the product form because the root's argument is positive. -/
theorem refTerm_eq_out (x0 : FVec Ideal Cert.ReferenceIdeal.S4x8192x1024 .f32) (x1 : FVec Ideal Cert.ReferenceIdeal.S8192x1024 .f32)
    (x2 x3 : FVec Ideal Cert.ReferenceIdeal.S1024 .f32) :
    Cert.ReferenceIdeal.Term.refTerm (F := Ideal) x0 x1 x2 x3 = Cert.LN.out x0 x1 x2 x3 := by
  funext i
  obtain ⟨b, s, k, rfl⟩ : ∃ (b : Fin 4) (s : Fin 8192) (k : Fin 1024), i = ix3 b s k := ⟨i 0, i 1, i 2, eq_ix3 i⟩
  exact (Cert.ReferenceIdeal.RefValue.refTerm_apply x0 x1 x2 x3 b s k).trans (Cert.LN.outDiv_eq_outMul x0 x1 x2 x3 b s k)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the layer normalisation of the (agreeing) arguments in their result arrays. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact refTerm_eq_out _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
